-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x64 : Shape := ⟨2, ![128, 64]⟩
abbrev S128x256 : Shape := ⟨2, ![128, 256]⟩
abbrev S256 : Shape := ⟨1, ![256]⟩
abbrev S256x64 : Shape := ⟨2, ![256, 64]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x64 : S_.BroadcastsInDim S128x64 (![] : Fin 0 → Fin S128x64.rank)
  reducesTo_S128x64_S_d0_1 : S128x64.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256 .f32) (main_arg6 : FVec F S256x64 .f32) (main_arg7 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S800000 .f32) (main_arg3 : FVec F S128x64 .f32) (main_arg4 : FVec F S128x256 .f32) (main_arg5 : FVec F S256 .f32) (main_arg6 : FVec F S256x64 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x64 : Shape := ⟨2, ![128, 64]⟩
abbrev S128x256 : Shape := ⟨2, ![128, 256]⟩
abbrev S256 : Shape := ⟨1, ![256]⟩
abbrev S256x64 : Shape := ⟨2, ![256, 64]⟩
abbrev S128 : Shape := ⟨1, ![128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S8000x128 : Shape := ⟨2, ![8000, 128]⟩
abbrev S8000x256 : Shape := ⟨2, ![8000, 256]⟩
abbrev S1x256 : Shape := ⟨2, ![1, 256]⟩
abbrev S50000x256 : Shape := ⟨2, ![50000, 256]⟩
abbrev S50000 : Shape := ⟨1, ![50000]⟩
abbrev S50000x1 : Shape := ⟨2, ![50000, 1]⟩
abbrev S5000x128 : Shape := ⟨2, ![5000, 128]⟩
abbrev S5000x256 : Shape := ⟨2, ![5000, 256]⟩
abbrev S5000x64 : Shape := ⟨2, ![5000, 64]⟩
abbrev S1x128 : Shape := ⟨2, ![1, 128]⟩

abbrev nBuf : Space → Nat
  | .hbm => 42
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x64, .f32⟩
  | .hbm, ⟨4, _⟩ => ⟨S128x256, .f32⟩
  | .hbm, ⟨5, _⟩ => ⟨S256, .f32⟩
  | .hbm, ⟨6, _⟩ => ⟨S256x64, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x1, .f32⟩
  | .hbm, ⟨22, _⟩ => ⟨S800000x128, .f32⟩
  | .hbm, ⟨23, _⟩ => ⟨S800000x128, .f32⟩
  | .hbm, ⟨24, _⟩ => ⟨S800000x256, .f32⟩
  | .hbm, ⟨25, _⟩ => ⟨S_, .f32⟩
  | .hbm, ⟨26, _⟩ => ⟨S50000x256, .f32⟩
  | .hbm, ⟨27, _⟩ => ⟨S800000x1, .i32⟩
  | .hbm, ⟨28, _⟩ => ⟨S50000x256, .f32⟩
  | .hbm, ⟨29, _⟩ => ⟨S_, .f32⟩
  | .hbm, ⟨30, _⟩ => ⟨S800000, .f32⟩
  | .hbm, ⟨31, _⟩ => ⟨S_, .f32⟩
  | .hbm, ⟨32, _⟩ => ⟨S50000, .f32⟩
  | .hbm, ⟨33, _⟩ => ⟨S800000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x256, .f32⟩
  | .hbm, ⟨40, _⟩ => ⟨S50000x256, .f32⟩
  | .hbm, ⟨41, _⟩ => ⟨S50000x128, .f32⟩
  | .local _ .vmem, ⟨0, _⟩ => ⟨S8000x128, .f32⟩
  | .local _ .vmem, ⟨1, _⟩ => ⟨S8000x128, .f32⟩
  | .local _ .vmem, ⟨2, _⟩ => ⟨S128x256, .f32⟩
  | .local _ .vmem, ⟨3, _⟩ => ⟨S256, .f32⟩
  | .local _ .vmem, ⟨4, _⟩ => ⟨S8000x256, .f32⟩
  | .local _ .vmem, ⟨5, _⟩ => ⟨S8000x256, .f32⟩
  | .local _ .vmem, ⟨6, _⟩ => ⟨S5000x128, .f32⟩
  | .local _ .vmem, ⟨7, _⟩ => ⟨S5000x128, .f32⟩
  | .local _ .vmem, ⟨8, _⟩ => ⟨S5000x256, .f32⟩
  | .local _ .vmem, ⟨9, _⟩ => ⟨S5000x256, .f32⟩
  | .local _ .vmem, ⟨10, _⟩ => ⟨S128x64, .f32⟩
  | .local _ .vmem, ⟨11, _⟩ => ⟨S256x64, .f32⟩
  | .local _ .vmem, ⟨12, _⟩ => ⟨S128, .f32⟩
  | .local _ .vmem, ⟨13, _⟩ => ⟨S5000x128, .f32⟩
  | .local _ .vmem, ⟨14, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S8000x256 : S1x256.Broadcasts S8000x256
  inb_S8000x256_S8000x256_0_0 : ∀ a, (![0, 0] : Fin 2 → Nat) a + S8000x256.size a ≤ S8000x256.size a
  h_S8000x256 : 0 < S8000x256.numel
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  inb_S5000x128_S5000x128_0_0 : ∀ a, (![0, 0] : Fin 2 → Nat) a + S5000x128.size a ≤ S5000x128.size a
  h_S5000x128 : 0 < S5000x128.numel
  inb_S128x64_S128x64_0_0 : ∀ a, (![0, 0] : Fin 2 → Nat) a + S128x64.size a ≤ S128x64.size a
  h_S128x64 : 0 < S128x64.numel
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x64_S256x64_0_0 : ∀ a, (![0, 0] : Fin 2 → Nat) a + S256x64.size a ≤ S256x64.size a
  h_S256x64 : 0 < S256x64.numel
  concatenates_S5000x64_S5000x64_S5000x128_d1 : Shape.Concatenates [S5000x64, S5000x64] S5000x128 1
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S8000x128_S128x256_S8000x256_1_0_0_1_n_n_wf : DotDims.WF S8000x128 S128x256 S8000x256 [1] [0] [0] [1] [] []
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S5000x128_S128x64_S5000x64_1_0_0_1_n_n_wf : DotDims.WF S5000x128 S128x64 S5000x64 [1] [0] [0] [1] [] []
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .f32 = 32 ∨ (Rect.block (s := S800000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x256.size a ≤ S800000x256.size a
  hwx0_3 : ∀ i : grid0.Coords, EltTy.bits .f32 = 32 ∨ (Rect.block (s := S800000x256) S8000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .f32 = 32 ∨ (Rect.block (s := S256x64) S256x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x256_S8000x256_1_0_0_1_n_n : DotDims S8000x128 S128x256 S8000x256 where
  lhsContracting := [1]
  rhsContracting := [0]
  lhsNonContracting := [0]
  rhsNonContracting := [1]
  lhsBatch := []
  rhsBatch := []
  wf := dot_S8000x128_S128x256_S8000x256_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_v13) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S8000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x64 : Shape := ⟨2, ![128, 64]⟩
abbrev S128x256 : Shape := ⟨2, ![128, 256]⟩
abbrev S256 : Shape := ⟨1, ![256]⟩
abbrev S256x64 : Shape := ⟨2, ![256, 64]⟩
abbrev S128 : Shape := ⟨1, ![128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x256 : Shape := ⟨2, ![1, 256]⟩
abbrev S50000x256 : Shape := ⟨2, ![50000, 256]⟩
abbrev S50000 : Shape := ⟨1, ![50000]⟩
abbrev S50000x1 : Shape := ⟨2, ![50000, 1]⟩
abbrev S50000x64 : Shape := ⟨2, ![50000, 64]⟩
abbrev S1x128 : Shape := ⟨2, ![1, 128]⟩

abbrev nBuf : Space → Nat
  | .hbm => 56
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x64, .f32⟩
  | .hbm, ⟨4, _⟩ => ⟨S128x256, .f32⟩
  | .hbm, ⟨5, _⟩ => ⟨S256, .f32⟩
  | .hbm, ⟨6, _⟩ => ⟨S256x64, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x1, .f32⟩
  | .hbm, ⟨22, _⟩ => ⟨S800000x128, .f32⟩
  | .hbm, ⟨23, _⟩ => ⟨S800000x128, .f32⟩
  | .hbm, ⟨24, _⟩ => ⟨S800000x256, .f32⟩
  | .hbm, ⟨25, _⟩ => ⟨S1x256, .f32⟩
  | .hbm, ⟨26, _⟩ => ⟨S800000x256, .f32⟩
  | .hbm, ⟨27, _⟩ => ⟨S800000x256, .f32⟩
  | .hbm, ⟨28, _⟩ => ⟨S_, .f32⟩
  | .hbm, ⟨29, _⟩ => ⟨S800000x256, .f32⟩
  | .hbm, ⟨30, _⟩ => ⟨S800000x256, .f32⟩
  | .hbm, ⟨31, _⟩ => ⟨S_, .f32⟩
  | .hbm, ⟨32, _⟩ => ⟨S50000x256, .f32⟩
  | .hbm, ⟨33, _⟩ => ⟨S800000x1, .i32⟩
  | .hbm, ⟨34, _⟩ => ⟨S50000x256, .f32⟩
  | .hbm, ⟨35, _⟩ => ⟨S_, .f32⟩
  | .hbm, ⟨36, _⟩ => ⟨S800000, .f32⟩
  | .hbm, ⟨37, _⟩ => ⟨S_, .f32⟩
  | .hbm, ⟨38, _⟩ => ⟨S50000, .f32⟩
  | .hbm, ⟨39, _⟩ => ⟨S800000x1, .i32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S50000x1, .f32⟩
  | .hbm, ⟨45, _⟩ => ⟨S50000x256, .f32⟩
  | .hbm, ⟨46, _⟩ => ⟨S50000x256, .f32⟩
  | .hbm, ⟨47, _⟩ => ⟨S50000x64, .f32⟩
  | .hbm, ⟨48, _⟩ => ⟨S50000x64, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call1_cst : Ref sig .tc := ⟨.hbm, 53, rfl⟩
abbrev main_call1_v0 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  concatenates_S50000x64_S50000x64_S50000x128_d1 : Shape.Concatenates [S50000x64, S50000x64] S50000x128 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  gather_S50000x128_S800000x1_S800000x128_1_0_n_n_0_1_1128_wf : GatherDims.WF S50000x128 S800000x1 S800000x128 [1] [0] [] [0] [] 1 ![1, 128]
  dot_S800000x128_S128x256_S800000x256_1_0_0_1_n_n_wf : DotDims.WF S800000x128 S128x256 S800000x256 [1] [0] [0] [1] [] []
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x64_S50000x64_1_0_0_1_n_n_wf : DotDims.WF S50000x256 S256x64 S50000x64 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x256_S800000x256_1_0_0_1_n_n : DotDims S800000x128 S128x256 S800000x256 where
  lhsContracting := [1]
  rhsContracting := [0]
  lhsNonContracting := [0]
  rhsNonContracting := [1]
  lhsBatch := []
  rhsBatch := []
  wf := dot_S800000x128_S128x256_S800000x256_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The two dense stages of the mean-pool GraphSAGE layer as functions on the extended reals, index by index, over the
  literal shapes. Both the tiled kernels and the plain host program compute exactly these:

  * the per-edge hidden layer: row `e`, column `h` is  max (∑ₖ nx[e,k] · W1[k,h] + b1[h], 0);
  * the per-node output layer: row `n`, column `u` is  max (y[n,u] + b[u], 0)  where the 128 columns are the 64
    columns of  x · Wself  followed by the 64 columns of  mean_h · Wneigh.

  No law of arithmetic beyond reading each operation at an index is needed to meet them: a sum over the contraction
  index is the same sum on both sides, and the zero the maximum is taken against is one bit pattern on both sides.
-/
import Idealize.ShloMosaic.PureOps.Ideal
import Idealize.ShloMosaic.Lib.ValueIdx

noncomputable section

namespace Cert.Spec

open Idealize.ShloMosaic Idealize.ShloMosaic.ValueIdx

/-- The hidden layer of one edge: `max (∑ₖ nx[e,k] · w[k,h] + b[h], 0)`. -/
def edgeHidden (nx : FVec Ideal ⟨2, ![800000, 128]⟩ .f32) (w : FVec Ideal ⟨2, ![128, 256]⟩ .f32) (b : FVec Ideal ⟨1, ![256]⟩ .f32) :
    FVec Ideal ⟨2, ![800000, 256]⟩ .f32 :=
  fun i => max ((∑ k : Fin 128, nx (ix2 (⟨(i 0).val, (i 0).isLt⟩ : Fin 800000) k) * w (ix2 k (⟨(i 1).val, (i 1).isLt⟩ : Fin 256)))
    + b (ix1 (⟨(i 1).val, (i 1).isLt⟩ : Fin 256))) (Ideal.ofBits .f32 0x00000000#32)

/-- The output layer of one node before the bias: columns 0–63 are `∑ₖ x[n,k] · sk[k,u]`, columns 64–127 are
    `∑ₖ mh[n,k] · nk[k,u-64]`. -/
def nodeJoined (x : FVec Ideal ⟨2, ![50000, 128]⟩ .f32) (mh : FVec Ideal ⟨2, ![50000, 256]⟩ .f32) (sk : FVec Ideal ⟨2, ![128, 64]⟩ .f32)
    (nk : FVec Ideal ⟨2, ![256, 64]⟩ .f32) : FVec Ideal ⟨2, ![50000, 128]⟩ .f32 :=
  fun i => if h : (i 1).val < 64
    then ∑ k : Fin 128, x (ix2 (⟨(i 0).val, (i 0).isLt⟩ : Fin 50000) k) * sk (ix2 k (⟨(i 1).val, h⟩ : Fin 64))
    else ∑ k : Fin 256, mh (ix2 (⟨(i 0).val, (i 0).isLt⟩ : Fin 50000) k) * nk (ix2 k (⟨(i 1).val - 64, by have := (i 1).isLt; show (i 1).val - 64 < 64; change (i 1).val < 128 at this; omega⟩ : Fin 64))

/-- The output layer of one node: `max (joined[n,u] + b[u], 0)`. -/
def nodeOut (x : FVec Ideal ⟨2, ![50000, 128]⟩ .f32) (mh : FVec Ideal ⟨2, ![50000, 256]⟩ .f32) (sk : FVec Ideal ⟨2, ![128, 64]⟩ .f32)
    (nk : FVec Ideal ⟨2, ![256, 64]⟩ .f32) (b : FVec Ideal ⟨1, ![128]⟩ .f32) : FVec Ideal ⟨2, ![50000, 128]⟩ .f32 :=
  fun i => max (nodeJoined x mh sk nk i + b (ix1 (⟨(i 1).val, (i 1).isLt⟩ : Fin 128))) (Ideal.ofBits .f32 0x00000000#32)

end Cert.Spec

end
-- ==== Proof.EdgeValue.lean ====
/-
  The first tiled kernel: the per-edge hidden layer. Each of its 100 grid points loads 8000 rows of the scaled
  neighbour features, the whole weight matrix and the whole bias, and stores  max (rows · W1 + b1, 0)  into rows
  8000·t … 8000·t + 7999 of the result. Read index by index, the block it writes back is that block of
  `Spec.edgeHidden` of the three arrays as the kernel finds them; the 100 blocks tile the 800000 rows, so the array
  the kernel leaves IS `Spec.edgeHidden` of them.
-/
import proofs.«135043_j79972291052243_1_alg».proof.Proof.Gen.KernelIdeal.Frame
import proofs.«135043_j79972291052243_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeValue

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at one entry of the block -/

theorem lhs_0 (i : S8000x256.Idx) (q : dot_S8000x128_S128x256_S8000x256_1_0_0_1_n_n.contr.Idx) :
    (dot_S8000x128_S128x256_S8000x256_1_0_0_1_n_n.lhsIdx i q 0).val = (i 0).val := by
  unfold DotDims.lhsIdx
  rw [dif_neg (show ¬(0 : Fin S8000x128.rank) ∈ dot_S8000x128_S128x256_S8000x256_1_0_0_1_n_n.lhsBatch by decide), dif_pos (show (0 : Fin S8000x128.rank) ∈ dot_S8000x128_S128x256_S8000x256_1_0_0_1_n_n.lhsNonContracting by decide)]
  rfl
theorem lhs_1 (i : S8000x256.Idx) (q : dot_S8000x128_S128x256_S8000x256_1_0_0_1_n_n.contr.Idx) :
    (dot_S8000x128_S128x256_S8000x256_1_0_0_1_n_n.lhsIdx i q 1).val = (q ⟨0, by decide⟩).val :=
  dot_S8000x128_S128x256_S8000x256_1_0_0_1_n_n.lhsIdx_val_of_single rfl i q
theorem rhs_0 (i : S8000x256.Idx) (q : dot_S8000x128_S128x256_S8000x256_1_0_0_1_n_n.contr.Idx) :
    (dot_S8000x128_S128x256_S8000x256_1_0_0_1_n_n.rhsIdx i q 0).val = (q ⟨0, by decide⟩).val :=
  dot_S8000x128_S128x256_S8000x256_1_0_0_1_n_n.rhsIdx_val_of_single rfl i q
theorem rhs_1 (i : S8000x256.Idx) (q : dot_S8000x128_S128x256_S8000x256_1_0_0_1_n_n.contr.Idx) :
    (dot_S8000x128_S128x256_S8000x256_1_0_0_1_n_n.rhsIdx i q 1).val = (i 1).val := by
  unfold DotDims.rhsIdx
  rw [dif_neg (show ¬(1 : Fin S128x256.rank) ∈ dot_S8000x128_S128x256_S8000x256_1_0_0_1_n_n.rhsBatch by decide), dif_pos (show (1 : Fin S128x256.rank) ∈ dot_S8000x128_S128x256_S8000x256_1_0_0_1_n_n.rhsNonContracting by decide)]
  rfl

/-- The product of a block of rows with the weight matrix, into a zero accumulator, at row `p` and column `q`: the sum
    over the 128 features of row entry times weight entry. -/
theorem rowsTimesW_apply (a : FVec Ideal S8000x128 .bf16) (b : FVec Ideal S128x256 .bf16) (p : Fin 8000) (q : Fin 256) :
    matmul dot_S8000x128_S128x256_S8000x256_1_0_0_1_n_n none a b (constant S8000x256 .f32 0x00000000#32) (ix2 p q)
      = ∑ k : Fin 128, a (ix2 p k) * b (ix2 k q) := by
  simp only [matmul]
  rw [Ideal.matmul_constant_zero_apply, ← Equiv.sum_comp (ValueIdx.contrEquiv1 dot_S8000x128_S128x256_S8000x256_1_0_0_1_n_n 128 rfl rfl).symm]
  refine Finset.sum_congr rfl fun k _ => ?_
  have hk := ValueIdx.contrEquiv1_symm_val dot_S8000x128_S128x256_S8000x256_1_0_0_1_n_n 128 rfl rfl k
  have el : dot_S8000x128_S128x256_S8000x256_1_0_0_1_n_n.lhsIdx (ix2 p q) ((ValueIdx.contrEquiv1 dot_S8000x128_S128x256_S8000x256_1_0_0_1_n_n 128 rfl rfl).symm k) = ix2 p k := funext fun a => Fin.ext (by
    match a with
    | ⟨0, _⟩ => exact lhs_0 _ _
    | ⟨1, _⟩ => exact (lhs_1 _ _).trans hk)
  have er : dot_S8000x128_S128x256_S8000x256_1_0_0_1_n_n.rhsIdx (ix2 p q) ((ValueIdx.contrEquiv1 dot_S8000x128_S128x256_S8000x256_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias laid along every row: at row `p`, column `q` it is the bias at `q`. -/
theorem biasRows_apply (x2 : FVec Ideal S256 .f32) (p : Fin 8000) (q : Fin 256) :
    broadcastTo S8000x256 (shapeCast S1x256 x2 shapeCasts_S256_S1x256) broadcasts_S1x256_S8000x256 (ix2 p q) = x2 (ix1 q) := by
  refine (broadcastTo_apply _ broadcasts_S1x256_S8000x256 (ix2 p q) (ix2 (0 : Fin 1) q) (fun a => by
    match a with
    | ⟨0, _⟩ => show (0 : Nat) = if (1 : Nat) = 1 then 0 else _; rw [if_pos rfl]
    | ⟨1, _⟩ => show q.val = if (256 : Nat) = 1 then 0 else q.val; rw [if_neg (by decide)])).trans ?_
  exact shapeCast_apply x2 shapeCasts_S256_S1x256 (ix2 (0 : Fin 1) q) (ix1 q)
    (by rewrite [Shape.rowMajor_val_two, Shape.rowMajor_val_one]; show q.val = 0 * 256 + q.val; omega)

/-- What the body stores at row `p`, column `q` of its block, from the three blocks it loaded. -/
theorem stored_apply (x0 : Vec Ideal S8000x128 .f32) (x1 : Vec Ideal S128x256 .f32) (x2 : Vec Ideal S256 .f32) (p : Fin 8000) (q : Fin 256) :
    k0_pay1 (F := Ideal) x0 x1 x2 (ix2 p q)
      = max ((∑ k : Fin 128, x0 (ix2 p k) * x1 (ix2 k q)) + x2 (ix1 q)) (Ideal.ofBits .f32 0x00000000#32) := by
  unfold k0_pay1
  refine (maximumf_apply _ _ _).trans ?_
  refine congrArg₂ max ?_ rfl
  refine (addf_apply _ _ _).trans ?_
  refine congrArg₂ (· + ·) ?_ (biasRows_apply x2 p q)
  refine (rowsTimesW_apply _ _ p q).trans ?_
  refine Finset.sum_congr rfl fun k _ => ?_
  rw [truncf_apply, truncf_apply, shapeCast_self]

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the 100 grid points: the feature rows move with the result rows, the weights and the
    bias stay put, and the result's row-block index is below 100 with column-block index 0. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (1 : Fin 2) = 0
    ∧ win0_3.index t (0 : Fin 2) ≤ 99 :=
  (by decide +kernel : ∀ t : Fin grid0.N, _)

/-- Every row block is some grid point's. -/
theorem idx_onto : ∀ q0 : Fin 100, ∃ t : Fin cfg0.N, win0_3.index t = ![q0.val, 0] :=
  (by decide +kernel : ∀ q0 : Fin 100, ∃ t : Fin grid0.N, win0_3.index t = ![q0.val, 0])

/-- WHAT GRID POINT `t` WRITES BACK is block `t` of `Spec.edgeHidden` of the arrays as the kernel finds them. -/
theorem flushed_eq (c : Dev nD) (t : Fin cfg0.N) :
    (dat0 V c).flushed 3 t = ((cfg0.win 3).blk t).view.read (Elt Ideal)
      (Spec.edgeHidden (V c main_v13) (V c main_arg4) (V c main_arg5)) := by
  show (cfg0.win 3).cut (grid0.coords t) ((dat0 V c).after 3 t) = _
  rw [after0_3]
  unfold out0_3
  rw [View.canon_unit_zero hz2]
  simp only [View.ld_unit_zero (S := S8000x128) hz2, View.ld_unit_zero (S := S128x256) hz2, View.ld_unit_zero (S := S256) hz1]
  obtain ⟨e0, e1, e2, e3, e4, e5, e6⟩ := idx_facts t
  funext j
  obtain ⟨p, q, rfl⟩ : ∃ (p : Fin 8000) (q : Fin 256), j = ix2 p q := ⟨j 0, j 1, eq_ix2 j⟩
  refine (stored_apply (iblk0 V c 0 t) (iblk0 V c 1 t) (iblk0 V c 2 t) p q).trans ?_
  show _ = Spec.edgeHidden (V c main_v13) (V c main_arg4) (V c main_arg5) (((cfg0.win 3).blk t).view.emb (ix2 p q))
  unfold Spec.edgeHidden
  refine congrArg₂ max (congrArg₂ (· + ·) (Finset.sum_congr rfl fun k _ => congrArg₂ (· * ·) ?_ ?_) ?_) rfl
  · show V c main_v13 (((cfg0.win 0).blk t).view.emb (ix2 p k)) = V c main_v13 _
    refine congrArg (V c main_v13) (funext fun a => Fin.ext ?_)
    match a with
    | ⟨0, _⟩ => show win0_0.index t (0 : Fin 2) * 8000 + 1 * p.val = win0_3.index t (0 : Fin 2) * 8000 + 1 * p.val; omega
    | ⟨1, _⟩ => show win0_0.index t (1 : Fin 2) * 128 + 1 * k.val = k.val; omega
  · show V c main_arg4 (((cfg0.win 1).blk t).view.emb (ix2 k q)) = V c main_arg4 _
    refine congrArg (V c main_arg4) (funext fun a => Fin.ext ?_)
    match a with
    | ⟨0, _⟩ => show win0_1.index t (0 : Fin 2) * 128 + 1 * k.val = k.val; omega
    | ⟨1, _⟩ => show win0_1.index t (1 : Fin 2) * 256 + 1 * q.val = win0_3.index t (1 : Fin 2) * 256 + 1 * q.val; omega
  · show V c main_arg5 (((cfg0.win 2).blk t).view.emb (ix1 q)) = V c main_arg5 _
    refine congrArg (V c main_arg5) (funext fun a => Fin.ext ?_)
    match a with
    | ⟨0, _⟩ => show win0_2.index t (0 : Fin 1) * 256 + 1 * q.val = win0_3.index t (1 : Fin 2) * 256 + 1 * q.val; omega

/-- An index of the result is in point `t`'s block iff each coordinate is in the block's range on its axis. -/
theorem mem_blk (t : Fin cfg0.N) (i : S800000x256.Idx) :
    i ∈ ((cfg0.win 3).blk t).view.set ↔ ∀ a : Fin 2, win0_3.index t a * S8000x256.size a ≤ (i a).val ∧ (i a).val < win0_3.index t a * S8000x256.size a + S8000x256.size a := by
  show i ∈ ((View.whole main_v14).slice (win0_3.rect t)).set ↔ _
  rw [View.set_slice_whole, Rect.mem_set_unit]
  exact Iff.rfl

/-- The 100 blocks of 8000 rows tile the 800000 rows: every index is in the block of point `row / 8000`. -/
theorem covered (i : S800000x256.Idx) :
    ∃ t : Fin cfg0.N, (cfg0.win 3).flush t = true ∧ i ∈ ((cfg0.win 3).blk t).view.set := by
  have hi0 : (i 0).val < 800000 := (i 0).isLt
  have hi1 : (i 1).val < 256 := (i 1).isLt
  obtain ⟨t, ht⟩ := idx_onto ⟨(i 0).val / 8000, by omega⟩
  have q0 : win0_3.index t (0 : Fin 2) = (i 0).val / 8000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 8000 ≤ (i 0).val ∧ (i 0).val < win0_3.index t (0 : Fin 2) * 8000 + 8000; omega
  | ⟨1, _⟩ => show win0_3.index t (1 : Fin 2) * 256 ≤ (i 1).val ∧ (i 1).val < win0_3.index t (1 : Fin 2) * 256 + 256; omega

/-- THE ARRAY the first kernel leaves: `Spec.edgeHidden` of the arrays as it finds them. -/
theorem final (c : Dev nD) :
    (dat0 V c).arrAt 3 cfg0.N = Spec.edgeHidden (V c main_v13) (V c main_arg4) (V c main_arg5) :=
  (dat0 V c).arrAt_eq_of_cover 3 _ (fun t _ => flushed_eq V c t) covered

end Cert.KernelIdeal.EdgeValue

end
-- ==== Proof.NodeValue.lean ====
/-
  The second tiled kernel: the per-node output layer. Each of its 10 grid points loads 5000 rows of the node features
  and of the mean hidden features, the two weight matrices and the bias whole, and stores
  max ([rows_x · Wself | rows_mh · Wneigh] + b, 0)  into rows 5000·t … 5000·t + 4999 of the result. Read index by
  index the block it writes back is that block of `Spec.nodeOut` of the five arrays as the kernel finds them, and the 10
  blocks tile the 50000 rows.
-/
import proofs.«135043_j79972291052243_1_alg».proof.Proof.Gen.KernelIdeal.Frame
import proofs.«135043_j79972291052243_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeValue

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at one entry of the block -/

theorem self_lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem self_lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem self_rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem self_rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

theorem neigh_lhs_0 (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem neigh_lhs_1 (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
theorem neigh_rhs_0 (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
theorem neigh_rhs_1 (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- The node-feature rows times the self weights, into a zero accumulator, at row `p`, column `q`: the sum over the 128 features. -/
theorem rowsTimesSelf_apply (a : FVec Ideal S5000x128 .bf16) (b : FVec Ideal S128x64 .bf16) (p : Fin 5000) (q : Fin 64) :
    matmul dot_S5000x128_S128x64_S5000x64_1_0_0_1_n_n none a b (constant S5000x64 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact self_lhs_0 _ _
    | ⟨1, _⟩ => exact (self_lhs_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (self_rhs_0 _ _).trans hk
    | ⟨1, _⟩ => exact self_rhs_1 _ _)
  rw [el, er]

/-- The mean-hidden rows times the neighbour weights, into a zero accumulator, at row `p`, column `q`: the sum over the 256 hidden features. -/
theorem rowsTimesNeigh_apply (a : FVec Ideal S5000x256 .bf16) (b : FVec Ideal S256x64 .bf16) (p : Fin 5000) (q : Fin 64) :
    matmul dot_S5000x256_S256x64_S5000x64_1_0_0_1_n_n none a b (constant S5000x64 .f32 0x00000000#32) (ix2 p q)
      = ∑ k : Fin 256, a (ix2 p k) * b (ix2 k q) := by
  simp only [matmul]
  rw [Ideal.matmul_constant_zero_apply, ← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx (ix2 p q) ((ValueIdx.contrEquiv1 dot_S5000x256_S256x64_S5000x64_1_0_0_1_n_n 256 rfl rfl).symm k) = ix2 p k := funext fun a => Fin.ext (by
    match a with
    | ⟨0, _⟩ => exact neigh_lhs_0 _ _
    | ⟨1, _⟩ => exact (neigh_lhs_1 _ _).trans hk)
  have er : dot_S5000x256_S256x64_S5000x64_1_0_0_1_n_n.rhsIdx (ix2 p q) ((ValueIdx.contrEquiv1 dot_S5000x256_S256x64_S5000x64_1_0_0_1_n_n 256 rfl rfl).symm k) = ix2 k q := funext fun a => Fin.ext (by
    match a with
    | ⟨0, _⟩ => exact (neigh_rhs_0 _ _).trans hk
    | ⟨1, _⟩ => exact neigh_rhs_1 _ _)
  rw [el, er]

/-- The two products side by side: a column below 64 reads the first, a column from 64 on the second, 64 columns back. -/
theorem joined_left (a b : FVec Ideal S5000x64 .f32) (p : Fin 5000) (q : Fin 128) (h : q.val < 64) :
    concatenate S5000x128 1 [⟨S5000x64, a⟩, ⟨S5000x64, b⟩] concatenates_S5000x64_S5000x64_S5000x128_d1 (ix2 p q) = a (ix2 p (⟨q.val, h⟩ : Fin 64)) :=
  concatenate_pair_apply_left (t := S5000x128) (s₁ := S5000x64) (s₂ := S5000x64) (1 : Fin 2) _ _ concatenates_S5000x64_S5000x64_S5000x128_d1 (ix2 p q) rfl
    (ix2 p (⟨q.val, h⟩ : Fin 64)) (fun b => match b with
      | ⟨0, _⟩ => rfl
      | ⟨1, _⟩ => rfl)
theorem joined_right (a b : FVec Ideal S5000x64 .f32) (p : Fin 5000) (q : Fin 128) (h : ¬ q.val < 64) :
    concatenate S5000x128 1 [⟨S5000x64, a⟩, ⟨S5000x64, b⟩] concatenates_S5000x64_S5000x64_S5000x128_d1 (ix2 p q)
      = b (ix2 p (⟨q.val - 64, by have := q.isLt; omega⟩ : Fin 64)) :=
  concatenate_pair_apply_right (t := S5000x128) (s₁ := S5000x64) (s₂ := S5000x64) (1 : Fin 2) _ _ concatenates_S5000x64_S5000x64_S5000x128_d1 (ix2 p q) rfl rfl
    (ix2 p (⟨q.val - 64, by have := q.isLt; omega⟩ : Fin 64)) (fun b hb => match b, hb with
      | ⟨0, _⟩, _ => rfl
      | ⟨1, _⟩, hb => absurd rfl hb)
    (by show q.val - 64 + 64 = q.val; omega)

/-- The bias laid along every row. -/
theorem biasRows_apply (x4 : FVec Ideal S128 .f32) (p : Fin 5000) (q : Fin 128) :
    broadcastTo S5000x128 (shapeCast S1x128 x4 shapeCasts_S128_S1x128) broadcasts_S1x128_S5000x128 (ix2 p q) = x4 (ix1 q) := by
  refine (broadcastTo_apply _ broadcasts_S1x128_S5000x128 (ix2 p q) (ix2 (0 : Fin 1) q) (fun a => by
    match a with
    | ⟨0, _⟩ => show (0 : Nat) = if (1 : Nat) = 1 then 0 else _; rw [if_pos rfl]
    | ⟨1, _⟩ => show q.val = if (128 : Nat) = 1 then 0 else q.val; rw [if_neg (by decide)])).trans ?_
  exact shapeCast_apply x4 shapeCasts_S128_S1x128 (ix2 (0 : Fin 1) q) (ix1 q)
    (by rewrite [Shape.rowMajor_val_two, Shape.rowMajor_val_one]; show q.val = 0 * 128 + q.val; omega)

/-- What the body stores at row `p`, column `q` of its block, from the five blocks it loaded. -/
theorem stored_apply (x : Vec Ideal S5000x128 .f32) (sk : Vec Ideal S128x64 .f32) (mh : Vec Ideal S5000x256 .f32) (nk : Vec Ideal S256x64 .f32)
    (b : Vec Ideal S128 .f32) (p : Fin 5000) (q : Fin 128) :
    k1_pay1 (F := Ideal) x sk mh nk b (ix2 p q)
      = max ((if h : q.val < 64 then ∑ k : Fin 128, x (ix2 p k) * sk (ix2 k (⟨q.val, h⟩ : Fin 64))
          else ∑ k : Fin 256, mh (ix2 p k) * nk (ix2 k (⟨q.val - 64, by have := q.isLt; omega⟩ : Fin 64))) + b (ix1 q))
        (Ideal.ofBits .f32 0x00000000#32) := by
  unfold k1_pay1
  refine (maximumf_apply _ _ _).trans ?_
  refine congrArg₂ max ?_ rfl
  refine (addf_apply _ _ _).trans ?_
  refine congrArg₂ (· + ·) ?_ (biasRows_apply b p q)
  by_cases h : q.val < 64
  · rw [dif_pos h]
    refine (joined_left _ _ p q h).trans ?_
    refine (rowsTimesSelf_apply _ _ p _).trans ?_
    refine Finset.sum_congr rfl fun k _ => ?_
    rw [truncf_apply, truncf_apply]
  · rw [dif_neg h]
    refine (joined_right _ _ p q h).trans ?_
    refine (rowsTimesNeigh_apply _ _ p _).trans ?_
    refine Finset.sum_congr rfl fun k _ => ?_
    rw [truncf_apply, truncf_apply, shapeCast_self]

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the 10 grid points: the node rows and the mean-hidden rows move with the result rows,
    the weights and the bias stay put, and the result's row-block index is below 10 with column-block index 0. -/
theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 1) = 0
    ∧ win1_5.index t (1 : Fin 2) = 0
    ∧ win1_5.index t (0 : Fin 2) ≤ 9 :=
  (by decide +kernel : ∀ t : Fin grid1.N, _)

/-- Every row block is some grid point's. -/
theorem idx_onto : ∀ q0 : Fin 10, ∃ t : Fin cfg1.N, win1_5.index t = ![q0.val, 0] :=
  (by decide +kernel : ∀ q0 : Fin 10, ∃ t : Fin grid1.N, win1_5.index t = ![q0.val, 0])

/-- WHAT GRID POINT `t` WRITES BACK is block `t` of `Spec.nodeOut` of the arrays as the kernel finds them. -/
theorem flushed_eq (c : Dev nD) (t : Fin cfg1.N) :
    (dat1 V c).flushed 5 t = ((cfg1.win 5).blk t).view.read (Elt Ideal)
      (Spec.nodeOut (V c main_arg0) (V c main_v26) (V c main_arg3) (V c main_arg6) (V c main_arg7)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S5000x256) hz2, View.ld_unit_zero (S := S128x64) hz2,
    View.ld_unit_zero (S := S256x64) hz2, View.ld_unit_zero (S := S128) hz1]
  obtain ⟨e0, e1, e2, e3, e4, e5, e6, e7, e8, e9, e10⟩ := idx_facts t
  funext j
  obtain ⟨p, q, rfl⟩ : ∃ (p : Fin 5000) (q : Fin 128), j = ix2 p q := ⟨j 0, j 1, eq_ix2 j⟩
  refine (stored_apply (iblk1 V c 0 t) (iblk1 V c 2 t) (iblk1 V c 1 t) (iblk1 V c 3 t) (iblk1 V c 4 t) p q).trans ?_
  show _ = Spec.nodeOut (V c main_arg0) (V c main_v26) (V c main_arg3) (V c main_arg6) (V c main_arg7) (((cfg1.win 5).blk t).view.emb (ix2 p q))
  unfold Spec.nodeOut Spec.nodeJoined
  have hcol : ((((cfg1.win 5).blk t).view.emb (ix2 p q)) 1).val = q.val := by
    show win1_5.index t (1 : Fin 2) * 128 + 1 * q.val = q.val; omega
  refine congrArg₂ max (congrArg₂ (· + ·) ?_ ?_) rfl
  · by_cases h : q.val < 64
    · rw [dif_pos h, dif_pos (by rw [hcol]; exact h)]
      refine Finset.sum_congr rfl fun k _ => congrArg₂ (· * ·) ?_ ?_
      · show V c main_arg0 (((cfg1.win 0).blk t).view.emb (ix2 p k)) = V c main_arg0 _
        refine congrArg (V c main_arg0) (funext fun a => Fin.ext ?_)
        match a with
        | ⟨0, _⟩ => show win1_0.index t (0 : Fin 2) * 5000 + 1 * p.val = win1_5.index t (0 : Fin 2) * 5000 + 1 * p.val; omega
        | ⟨1, _⟩ => show win1_0.index t (1 : Fin 2) * 128 + 1 * k.val = k.val; omega
      · show V c main_arg3 (((cfg1.win 2).blk t).view.emb (ix2 k (⟨q.val, h⟩ : Fin 64))) = V c main_arg3 _
        refine congrArg (V c main_arg3) (funext fun a => Fin.ext ?_)
        match a with
        | ⟨0, _⟩ => show win1_2.index t (0 : Fin 2) * 128 + 1 * k.val = k.val; omega
        | ⟨1, _⟩ => show win1_2.index t (1 : Fin 2) * 64 + 1 * q.val = win1_5.index t (1 : Fin 2) * 128 + 1 * q.val; omega
    · rw [dif_neg h, dif_neg (by rw [hcol]; exact h)]
      refine Finset.sum_congr rfl fun k _ => congrArg₂ (· * ·) ?_ ?_
      · show V c main_v26 (((cfg1.win 1).blk t).view.emb (ix2 p k)) = V c main_v26 _
        refine congrArg (V c main_v26) (funext fun a => Fin.ext ?_)
        match a with
        | ⟨0, _⟩ => show win1_1.index t (0 : Fin 2) * 5000 + 1 * p.val = win1_5.index t (0 : Fin 2) * 5000 + 1 * p.val; omega
        | ⟨1, _⟩ => show win1_1.index t (1 : Fin 2) * 256 + 1 * k.val = k.val; omega
      · show V c main_arg6 (((cfg1.win 3).blk t).view.emb (ix2 k (⟨q.val - 64, by have := q.isLt; omega⟩ : Fin 64))) = V c main_arg6 _
        refine congrArg (V c main_arg6) (funext fun a => Fin.ext ?_)
        match a with
        | ⟨0, _⟩ => show win1_3.index t (0 : Fin 2) * 256 + 1 * k.val = k.val; omega
        | ⟨1, _⟩ => show win1_3.index t (1 : Fin 2) * 64 + 1 * (q.val - 64) = win1_5.index t (1 : Fin 2) * 128 + 1 * q.val - 64; omega
  · show V c main_arg7 (((cfg1.win 4).blk t).view.emb (ix1 q)) = V c main_arg7 _
    refine congrArg (V c main_arg7) (funext fun a => Fin.ext ?_)
    match a with
    | ⟨0, _⟩ => show win1_4.index t (0 : Fin 1) * 128 + 1 * q.val = win1_5.index t (1 : Fin 2) * 128 + 1 * q.val; omega

/-- An index of the result is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v27).slice (win1_5.rect t)).set ↔ _
  rw [View.set_slice_whole, Rect.mem_set_unit]
  exact Iff.rfl

/-- The 10 blocks of 5000 rows tile the 50000 rows: every index is in the block of point `row / 5000`. -/
theorem covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE ARRAY the second kernel leaves: `Spec.nodeOut` of the arrays as it finds them. -/
theorem final (c : Dev nD) :
    (dat1 V c).arrAt 5 cfg1.N = Spec.nodeOut (V c main_arg0) (V c main_v26) (V c main_arg3) (V c main_arg6) (V c main_arg7) :=
  (dat1 V c).arrAt_eq_of_cover 5 _ (fun t _ => flushed_eq V c t) covered

end Cert.KernelIdeal.NodeValue

end
-- ==== Proof.KernelValue.lean ====
/-
  The whole tiled program's result as one term of the eight argument arrays. Its run passes five boundaries: the
  launch memory; after the first stretch of plain operations (the gather of neighbour rows scaled by the edge weights);
  after the first kernel (the hidden layer of every edge); after the second stretch (the per-node sum of the hidden rows
  of its incoming edges divided by max (their number, 1)); after the second kernel (the output layer of every node).
  At each boundary the buffer the next stage reads holds the previous stage's function of what came before, so the
  result buffer ends at
    Spec.nodeOut x (segmentMean edge_index (Spec.edgeHidden (scaledNeighbours x edge_index edge_weight) W1 b1)) Wself Wneigh b.
-/
import proofs.«135043_j79972291052243_1_alg».proof.Proof.Gen.KernelIdeal.Frame
import proofs.«135043_j79972291052243_1_alg».proof.Proof.EdgeValue
import proofs.«135043_j79972291052243_1_alg».proof.Proof.NodeValue
import Idealize.ShloMosaic.Lib.StableHlo.Run

set_option maxRecDepth 16384

noncomputable section

namespace Cert.KernelIdeal.ProgValue

open Cert.KernelIdeal Cert.KernelIdeal.Gen Idealize.ShloMosaic Idealize.ShloMosaic.TcCoe Idealize.SL.Sem Idealize.ShloMosaic.StableHlo
open Idealize.ShloMosaic.Pipeline (Dat)

variable {F : FTy → Type} [FloatOps F]

/-! ## The two stretches of plain operations, each as one function -/

/-- Row 0 of the edge list: each edge's destination node. -/
def dstOf (ei : (⟨S2x800000, .i32⟩ : BufTy).Contents (Elt F)) : (⟨S800000, .i32⟩ : BufTy).Contents (Elt F) :=
  shapeCast _ (extractStridedSlice S1x800000 ![0, 0] ei slices_S2x800000_S1x800000_0_0) shapeCasts_S1x800000_S800000

/-- Row 1 of the edge list: each edge's source node. -/
def srcOf (ei : (⟨S2x800000, .i32⟩ : BufTy).Contents (Elt F)) : (⟨S800000, .i32⟩ : BufTy).Contents (Elt F) :=
  shapeCast _ (extractStridedSlice S1x800000 ![1, 0] ei slices_S2x800000_S1x800000_1_0) shapeCasts_S1x800000_S800000

/-- The first stretch: the source node's feature row of every edge (a negative index counted from the end), scaled by
    the edge's weight. -/
def scaledNeighbours (x : (⟨S50000x128, .f32⟩ : BufTy).Contents (Elt F)) (ei : (⟨S2x800000, .i32⟩ : BufTy).Contents (Elt F))
    (ew : (⟨S800000, .f32⟩ : BufTy).Contents (Elt F)) : (⟨S800000x128, .f32⟩ : BufTy).Contents (Elt F) :=
  mulf (Host.gather gather_S50000x128_S800000x1_S800000x128_1_0_n_n_0_1_1128 x
      (broadcastInDim S800000x1 ![0] bcast_S800000_S800000x1_0
        (select (cmpi .slt (srcOf ei) (broadcastInDim S800000 ![] bcast_S_S800000 (constantI S_ 32 0#32)))
          (addi (srcOf ei) (broadcastInDim S800000 ![] bcast_S_S800000 (constantI S_ 32 50000#32))) (srcOf ei))))
    (broadcastInDim S800000x128 ![0, 1] bcast_S800000x1_S800000x128_0_1 (broadcastInDim S800000x1 ![0] bcast_S800000_S800000x1_0 ew))

/-- The second stretch: the hidden rows summed into their destination nodes, divided by max (the number of edges into
    the node, 1). -/
def segmentMean (ei : (⟨S2x800000, .i32⟩ : BufTy).Contents (Elt F)) (h : (⟨S800000x256, .f32⟩ : BufTy).Contents (Elt F)) :
    (⟨S50000x256, .f32⟩ : BufTy).Contents (Elt F) :=
  Host.divf (Host.scatterAdd scatter_S50000x256_S800000x1_S800000x256_1_0_0_1 (broadcastInDim S50000x256 ![] bcast_S_S50000x256 (constant S_ .f32 0x00000000#32))
      (broadcastInDim S800000x1 ![0] bcast_S800000_S800000x1_0 (dstOf ei)) h)
    (broadcastInDim S50000x256 ![0, 1] bcast_S50000x1_S50000x256_0_1 (broadcastInDim S50000x1 ![0] bcast_S50000_S50000x1_0
      (maximumf (Host.scatterAdd scatter_S50000_S800000x1_S800000_n_0_0_1 (broadcastInDim S50000 ![] bcast_S_S50000 (constant S_ .f32 0x00000000#32))
          (broadcastInDim S800000x1 ![0] bcast_S800000_S800000x1_0 (dstOf ei)) (broadcastInDim S800000 ![] bcast_S_S800000 (constant S_ .f32 0x3F800000#32)))
        (broadcastInDim S50000 ![] bcast_S_S50000 (constant S_ .f32 0x3F800000#32)))))

variable (m : (ℓ : Loc nD τ sig) → Buf (Elt F) ℓ) (ρ : Dev nD → PrngReg)

/-! ## What the first kernel is entered with -/

theorem entry0_nx (c : Dev nD) : V1 m ρ c main_v13
    = scaledNeighbours (m ((c : Thread nD τ).loc main_arg0)) (m ((c : Thread nD τ).loc main_arg1)) (m ((c : Thread nD τ).loc main_arg2)) := by
  show StableHlo.after hostOps0 (W0 m ρ c) (Proc.devRef .tc main_v13) = _
  after_results_simp <;> rfl

theorem entry0_w (c : Dev nD) : V1 m ρ c main_arg4 = m ((c : Thread nD τ).loc main_arg4) := by
  show StableHlo.after hostOps0 (W0 m ρ c) (Proc.devRef .tc main_arg4) = _
  after_results_simp <;> rfl

theorem entry0_b (c : Dev nD) : V1 m ρ c main_arg5 = m ((c : Thread nD τ).loc main_arg5) := by
  show StableHlo.after hostOps0 (W0 m ρ c) (Proc.devRef .tc main_arg5) = _
  after_results_simp <;> rfl

/-- The destination indices, computed before the first kernel and untouched by it. -/
theorem exit0_dst (c : Dev nD) : W2 m ρ c (Proc.devRef .tc main_v1) = dstOf (m ((c : Thread nD τ).loc main_arg1)) := by
  rw [W2_of_ne m ρ c main_v1 (by decide)]
  show StableHlo.after hostOps0 (W0 m ρ c) (Proc.devRef .tc main_v1) = _
  after_results_simp <;> rfl

/-! ## What the second kernel is entered with -/

theorem entry1_mh (c : Dev nD) : V3 m ρ c main_v26
    = segmentMean (m ((c : Thread nD τ).loc main_arg1)) ((dat0 (V1 m ρ) c).arrAt 3 cfg0.N) := by
  rw [← W2_arr m ρ c 3]
  unfold segmentMean
  rw [← exit0_dst m ρ c]
  show StableHlo.after hostOps1 (W2 m ρ c) (Proc.devRef .tc main_v26) = _
  generalize W2 m ρ c = W
  after_results_simp <;> rfl

theorem entry1_x (c : Dev nD) : V3 m ρ c main_arg0 = m ((c : Thread nD τ).loc main_arg0) :=
  ((W4_arr m ρ c 0).trans (((dat1 (V3 m ρ) c).arrAt_in 0 rfl _).trans (A_eq1 (V3 m ρ) c 0))).symm.trans (W4_main_arg0 m ρ c)
theorem entry1_sk (c : Dev nD) : V3 m ρ c main_arg3 = m ((c : Thread nD τ).loc main_arg3) :=
  ((W4_arr m ρ c 2).trans (((dat1 (V3 m ρ) c).arrAt_in 2 rfl _).trans (A_eq1 (V3 m ρ) c 2))).symm.trans (W4_main_arg3 m ρ c)
theorem entry1_nk (c : Dev nD) : V3 m ρ c main_arg6 = m ((c : Thread nD τ).loc main_arg6) :=
  ((W4_arr m ρ c 3).trans (((dat1 (V3 m ρ) c).arrAt_in 3 rfl _).trans (A_eq1 (V3 m ρ) c 3))).symm.trans (W4_main_arg6 m ρ c)
theorem entry1_b (c : Dev nD) : V3 m ρ c main_arg7 = m ((c : Thread nD τ).loc main_arg7) :=
  ((W4_arr m ρ c 4).trans (((dat1 (V3 m ρ) c).arrAt_in 4 rfl _).trans (A_eq1 (V3 m ρ) c 4))).symm.trans (W4_main_arg7 m ρ c)

end Cert.KernelIdeal.ProgValue

namespace Cert.KernelIdeal.ProgValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- THE RESULT BUFFER at the last boundary, as one term of the argument arrays. -/
theorem result_eq (c : Dev nD) : W4 m ρ c (Proc.devRef .tc main_v27)
    = Spec.nodeOut (m ((c : Thread nD τ).loc main_arg0))
        (segmentMean (m ((c : Thread nD τ).loc main_arg1))
          (Spec.edgeHidden (scaledNeighbours (m ((c : Thread nD τ).loc main_arg0)) (m ((c : Thread nD τ).loc main_arg1)) (m ((c : Thread nD τ).loc main_arg2)))
            (m ((c : Thread nD τ).loc main_arg4)) (m ((c : Thread nD τ).loc main_arg5))))
        (m ((c : Thread nD τ).loc main_arg3)) (m ((c : Thread nD τ).loc main_arg6)) (m ((c : Thread nD τ).loc main_arg7)) := by
  refine (W4_arr m ρ c 5).trans ?_
  rw [NodeValue.final (V3 m ρ) c, entry1_x, entry1_sk, entry1_nk, entry1_b, entry1_mh, EdgeValue.final (V1 m ρ) c,
    entry0_nx, entry0_w, entry0_b]

end Cert.KernelIdeal.ProgValue

end
-- ==== Proof.RefValue.lean ====
/-
  The host program's two dense stages, read index by index: the hidden layer
  `max (nx · W1 + b1, 0)` written with a `dot_general`, two broadcasts of the bias and a maximum against a broadcast
  zero is `Spec.edgeHidden`; the output layer — the two `dot_general`s joined along the columns, the bias added, the
  maximum against zero — is `Spec.nodeOut`. A `dot_general` with one contracted axis is, at an index, the sum of
  products over that axis; a column below 64 of the joined array comes from the first product, a column from 64 on
  from the second, 64 columns back.
-/
import proofs.«135043_j79972291052243_1_alg».proof.Proof.Gen.ReferenceIdeal.Read
import proofs.«135043_j79972291052243_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-! ## The hidden layer -/

/-- `nx · W1` at row `e`, column `h`: the sum over the 128 features. -/
theorem edgeDot_apply (nx : FVec Ideal S800000x128 .f32) (w : FVec Ideal S128x256 .f32) (i : S800000x256.Idx) :
    Host.dotGeneral dot_S800000x128_S128x256_S800000x256_1_0_0_1_n_n none nx w i
      = ∑ k : Fin 128, nx (ix2 (⟨(i 0).val, (i 0).isLt⟩ : Fin 800000) k) * w (ix2 k (⟨(i 1).val, (i 1).isLt⟩ : Fin 256)) := by
  simp only [Host.dotGeneral]
  rw [Ideal.dotGeneral_apply, ← Equiv.sum_comp (ValueIdx.contrEquiv1 dot_S800000x128_S128x256_S800000x256_1_0_0_1_n_n 128 rfl rfl).symm]
  refine Finset.sum_congr rfl fun k _ => ?_
  have hk := ValueIdx.contrEquiv1_symm_val dot_S800000x128_S128x256_S800000x256_1_0_0_1_n_n 128 rfl rfl k
  have el : dot_S800000x128_S128x256_S800000x256_1_0_0_1_n_n.lhsIdx i ((ValueIdx.contrEquiv1 dot_S800000x128_S128x256_S800000x256_1_0_0_1_n_n 128 rfl rfl).symm k) = ix2 (⟨(i 0).val, (i 0).isLt⟩ : Fin 800000) k := funext fun a => Fin.ext (by
    match a with
    | ⟨0, _⟩ => exact Read.lhs_main_v14_0 _ _
    | ⟨1, _⟩ => exact (Read.lhs_main_v14_1 _ _).trans hk)
  have er : dot_S800000x128_S128x256_S800000x256_1_0_0_1_n_n.rhsIdx i ((ValueIdx.contrEquiv1 dot_S800000x128_S128x256_S800000x256_1_0_0_1_n_n 128 rfl rfl).symm k) = ix2 k (⟨(i 1).val, (i 1).isLt⟩ : Fin 256) := funext fun a => Fin.ext (by
    match a with
    | ⟨0, _⟩ => exact (Read.rhs_main_v14_0 _ _).trans hk
    | ⟨1, _⟩ => exact Read.rhs_main_v14_1 _ _)
  rw [el, er]

/-- The bias broadcast to every edge: at row `e`, column `h` it is the bias at `h`. -/
theorem edgeBias_apply (b : FVec Ideal S256 .f32) (i : S800000x256.Idx) :
    broadcastInDim S800000x256 ![0, 1] bcast_S1x256_S800000x256_0_1 (broadcastInDim S1x256 ![1] bcast_S256_S1x256_1 b) i
      = b (ix1 (⟨(i 1).val, (i 1).isLt⟩ : Fin 256)) := by
  refine (broadcastInDim_apply _ bcast_S1x256_S800000x256_0_1 _ i (ix2 (0 : Fin 1) (⟨(i 1).val, (i 1).isLt⟩ : Fin 256)) (fun a => match a with
    | ⟨0, _⟩ => by show (0 : Nat) = if (1 : Nat) = 1 then 0 else (i 0).val; rw [if_pos rfl]
    | ⟨1, _⟩ => by show (i 1).val = if (256 : Nat) = 1 then 0 else (i 1).val; rw [if_neg (by decide)])).trans ?_
  exact broadcastInDim_apply _ bcast_S256_S1x256_1 b _ (ix1 (⟨(i 1).val, (i 1).isLt⟩ : Fin 256)) (fun a => match a with
    | ⟨0, _⟩ => by show (i 1).val = if (256 : Nat) = 1 then 0 else (i 1).val; rw [if_neg (by decide)])

/-- The host's hidden layer is `Spec.edgeHidden`. -/
theorem hidden_eq (nx : FVec Ideal S800000x128 .f32) (w : FVec Ideal S128x256 .f32) (b : FVec Ideal S256 .f32) :
    maximumf (addf (Host.dotGeneral dot_S800000x128_S128x256_S800000x256_1_0_0_1_n_n none nx w)
        (broadcastInDim S800000x256 ![0, 1] bcast_S1x256_S800000x256_0_1 (broadcastInDim S1x256 ![1] bcast_S256_S1x256_1 b)))
      (broadcastInDim S800000x256 ![] bcast_S_S800000x256 (constant S_ .f32 0x00000000#32))
    = Spec.edgeHidden nx w b := by
  funext i
  unfold Spec.edgeHidden
  refine (maximumf_apply _ _ _).trans ?_
  refine congrArg₂ max ?_ ?_
  · refine (addf_apply _ _ _).trans ?_
    exact congrArg₂ (· + ·) (edgeDot_apply nx w i) (edgeBias_apply b i)
  · exact broadcastInDim_apply _ bcast_S_S800000x256 _ i ix0 (fun a => a.elim0)

/-! ## The output layer -/

/-- `x · Wself` at row `n`, column `u`. -/
theorem selfDot_apply (x : FVec Ideal S50000x128 .f32) (sk : FVec Ideal S128x64 .f32) (i : S50000x64.Idx) :
    Host.dotGeneral dot_S50000x128_S128x64_S50000x64_1_0_0_1_n_n none x sk i
      = ∑ k : Fin 128, x (ix2 (⟨(i 0).val, (i 0).isLt⟩ : Fin 50000) k) * sk (ix2 k (⟨(i 1).val, (i 1).isLt⟩ : Fin 64)) := by
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = ix2 (⟨(i 0).val, (i 0).isLt⟩ : Fin 50000) k := funext fun a => Fin.ext (by
    match a with
    | ⟨0, _⟩ => exact Read.lhs_main_v32_0 _ _
    | ⟨1, _⟩ => exact (Read.lhs_main_v32_1 _ _).trans hk)
  have er : dot_S50000x128_S128x64_S50000x64_1_0_0_1_n_n.rhsIdx i ((ValueIdx.contrEquiv1 dot_S50000x128_S128x64_S50000x64_1_0_0_1_n_n 128 rfl rfl).symm k) = ix2 k (⟨(i 1).val, (i 1).isLt⟩ : Fin 64) := funext fun a => Fin.ext (by
    match a with
    | ⟨0, _⟩ => exact (Read.rhs_main_v32_0 _ _).trans hk
    | ⟨1, _⟩ => exact Read.rhs_main_v32_1 _ _)
  rw [el, er]

/-- `mean_h · Wneigh` at row `n`, column `u`. -/
theorem neighDot_apply (mh : FVec Ideal S50000x256 .f32) (nk : FVec Ideal S256x64 .f32) (i : S50000x64.Idx) :
    Host.dotGeneral dot_S50000x256_S256x64_S50000x64_1_0_0_1_n_n none mh nk i
      = ∑ k : Fin 256, mh (ix2 (⟨(i 0).val, (i 0).isLt⟩ : Fin 50000) k) * nk (ix2 k (⟨(i 1).val, (i 1).isLt⟩ : Fin 64)) := by
  simp only [Host.dotGeneral]
  rw [Ideal.dotGeneral_apply, ← Equiv.sum_comp (ValueIdx.contrEquiv1 dot_S50000x256_S256x64_S50000x64_1_0_0_1_n_n 256 rfl rfl).symm]
  refine Finset.sum_congr rfl fun k _ => ?_
  have hk := ValueIdx.contrEquiv1_symm_val dot_S50000x256_S256x64_S50000x64_1_0_0_1_n_n 256 rfl rfl k
  have el : dot_S50000x256_S256x64_S50000x64_1_0_0_1_n_n.lhsIdx i ((ValueIdx.contrEquiv1 dot_S50000x256_S256x64_S50000x64_1_0_0_1_n_n 256 rfl rfl).symm k) = ix2 (⟨(i 0).val, (i 0).isLt⟩ : Fin 50000) k := funext fun a => Fin.ext (by
    match a with
    | ⟨0, _⟩ => exact Read.lhs_main_v31_0 _ _
    | ⟨1, _⟩ => exact (Read.lhs_main_v31_1 _ _).trans hk)
  have er : dot_S50000x256_S256x64_S50000x64_1_0_0_1_n_n.rhsIdx i ((ValueIdx.contrEquiv1 dot_S50000x256_S256x64_S50000x64_1_0_0_1_n_n 256 rfl rfl).symm k) = ix2 k (⟨(i 1).val, (i 1).isLt⟩ : Fin 64) := funext fun a => Fin.ext (by
    match a with
    | ⟨0, _⟩ => exact (Read.rhs_main_v31_0 _ _).trans hk
    | ⟨1, _⟩ => exact Read.rhs_main_v31_1 _ _)
  rw [el, er]

/-- The two products joined along the columns are `Spec.nodeJoined`. -/
theorem joined_apply (x : FVec Ideal S50000x128 .f32) (mh : FVec Ideal S50000x256 .f32) (sk : FVec Ideal S128x64 .f32)
    (nk : FVec Ideal S256x64 .f32) (i : S50000x128.Idx) :
    concatenate S50000x128 1 [⟨S50000x64, Host.dotGeneral dot_S50000x128_S128x64_S50000x64_1_0_0_1_n_n none x sk⟩,
        ⟨S50000x64, Host.dotGeneral dot_S50000x256_S256x64_S50000x64_1_0_0_1_n_n none mh nk⟩] concatenates_S50000x64_S50000x64_S50000x128_d1 i
      = Spec.nodeJoined x mh sk nk i := by
  unfold Spec.nodeJoined
  by_cases h : (i 1).val < 64
  · rw [dif_pos h]
    refine (concatenate_pair_apply_left (t := S50000x128) (s₁ := S50000x64) (s₂ := S50000x64) (1 : Fin 2) _ _ concatenates_S50000x64_S50000x64_S50000x128_d1 i rfl
      (ix2 (⟨(i 0).val, (i 0).isLt⟩ : Fin 50000) (⟨(i 1).val, h⟩ : Fin 64)) (fun b => match b with
        | ⟨0, _⟩ => rfl
        | ⟨1, _⟩ => rfl)).trans ?_
    exact selfDot_apply x sk _
  · rw [dif_neg h]
    have hi : (i 1).val < 128 := (i 1).isLt
    refine (concatenate_pair_apply_right (t := S50000x128) (s₁ := S50000x64) (s₂ := S50000x64) (1 : Fin 2) _ _ concatenates_S50000x64_S50000x64_S50000x128_d1 i rfl rfl
      (ix2 (⟨(i 0).val, (i 0).isLt⟩ : Fin 50000) (⟨(i 1).val - 64, by omega⟩ : Fin 64)) (fun b hb => match b, hb with
        | ⟨0, _⟩, _ => rfl
        | ⟨1, _⟩, hb => absurd rfl hb)
      (by show (i 1).val - 64 + 64 = (i 1).val; omega)).trans ?_
    exact neighDot_apply mh nk _

/-- The bias broadcast to every node. -/
theorem nodeBias_apply (b : FVec Ideal S128 .f32) (i : S50000x128.Idx) :
    broadcastInDim S50000x128 ![0, 1] bcast_S1x128_S50000x128_0_1 (broadcastInDim S1x128 ![1] bcast_S128_S1x128_1 b) i
      = b (ix1 (⟨(i 1).val, (i 1).isLt⟩ : Fin 128)) := by
  refine (broadcastInDim_apply _ bcast_S1x128_S50000x128_0_1 _ i (ix2 (0 : Fin 1) (⟨(i 1).val, (i 1).isLt⟩ : Fin 128)) (fun a => match a with
    | ⟨0, _⟩ => by show (0 : Nat) = if (1 : Nat) = 1 then 0 else (i 0).val; rw [if_pos rfl]
    | ⟨1, _⟩ => by show (i 1).val = if (128 : Nat) = 1 then 0 else (i 1).val; rw [if_neg (by decide)])).trans ?_
  exact broadcastInDim_apply _ bcast_S128_S1x128_1 b _ (ix1 (⟨(i 1).val, (i 1).isLt⟩ : Fin 128)) (fun a => match a with
    | ⟨0, _⟩ => by show (i 1).val = if (128 : Nat) = 1 then 0 else (i 1).val; rw [if_neg (by decide)])

/-- The host's output layer is `Spec.nodeOut`. -/
theorem out_eq (x : FVec Ideal S50000x128 .f32) (mh : FVec Ideal S50000x256 .f32) (sk : FVec Ideal S128x64 .f32)
    (nk : FVec Ideal S256x64 .f32) (b : FVec Ideal S128 .f32) :
    maximumf (addf (concatenate S50000x128 1 [⟨S50000x64, Host.dotGeneral dot_S50000x128_S128x64_S50000x64_1_0_0_1_n_n none x sk⟩,
          ⟨S50000x64, Host.dotGeneral dot_S50000x256_S256x64_S50000x64_1_0_0_1_n_n none mh nk⟩] concatenates_S50000x64_S50000x64_S50000x128_d1)
        (broadcastInDim S50000x128 ![0, 1] bcast_S1x128_S50000x128_0_1 (broadcastInDim S1x128 ![1] bcast_S128_S1x128_1 b)))
      (broadcastInDim S50000x128 ![] bcast_S_S50000x128 (constant S_ .f32 0x00000000#32))
    = Spec.nodeOut x mh sk nk b := by
  funext i
  unfold Spec.nodeOut
  refine (maximumf_apply _ _ _).trans ?_
  refine congrArg₂ max ?_ ?_
  · refine (addf_apply _ _ _).trans ?_
    exact congrArg₂ (· + ·) (joined_apply x mh sk nk i) (nodeBias_apply b i)
  · exact broadcastInDim_apply _ bcast_S_S50000x128 _ i ix0 (fun a => a.elim0)

/-! ## The whole host program's result -/

/-- The host's mean stage as a function of the edge list and the hidden rows: their sum into the destination nodes,
    divided by max (the number of edges into the node, 1). -/
def meanOf {F : FTy → Type} [FloatOps F] (x1 : (⟨S2x800000, .i32⟩ : BufTy).Contents (Elt F)) (h : (⟨S800000x256, .f32⟩ : BufTy).Contents (Elt F)) :
    (⟨S50000x256, .f32⟩ : BufTy).Contents (Elt F) :=
  Host.divf (Host.scatterAdd scatter_S50000x256_S800000x1_S800000x256_1_0_0_1 (Read.val_main_v19 (F := F)) (Read.val_main_v20 (F := F) x1) h)
    (Read.val_main_v29 (F := F) x1)

/-- The host program's result: the output layer of the node features and the mean of the hidden layer of the scaled
    neighbour rows. -/
theorem result_eq (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S128x64, .f32⟩ : BufTy).Contents (Elt Ideal))
    (x4 : (⟨S128x256, .f32⟩ : BufTy).Contents (Elt Ideal)) (x5 : (⟨S256, .f32⟩ : BufTy).Contents (Elt Ideal))
    (x6 : (⟨S256x64, .f32⟩ : BufTy).Contents (Elt Ideal)) (x7 : (⟨S128, .f32⟩ : BufTy).Contents (Elt Ideal)) :
    Read.val_main_v37 (F := Ideal) x0 x1 x2 x3 x4 x5 x6 x7
      = Spec.nodeOut x0 (meanOf (F := Ideal) x1 (Spec.edgeHidden (Read.val_main_v13 (F := Ideal) x0 x1 x2) x4 x5)) x3 x6 x7 := by
  have h18 : Read.val_main_v18 (F := Ideal) x0 x1 x2 x4 x5 = Spec.edgeHidden (Read.val_main_v13 (F := Ideal) x0 x1 x2) x4 x5 :=
    hidden_eq (Read.val_main_v13 (F := Ideal) x0 x1 x2) x4 x5
  have h30 : Read.val_main_v30 (F := Ideal) x0 x1 x2 x4 x5
      = meanOf (F := Ideal) x1 (Spec.edgeHidden (Read.val_main_v13 (F := Ideal) x0 x1 x2) x4 x5) :=
    (show Read.val_main_v30 (F := Ideal) x0 x1 x2 x4 x5 = meanOf (F := Ideal) x1 (Read.val_main_v18 (F := Ideal) x0 x1 x2 x4 x5) from rfl).trans
      (congrArg (meanOf (F := Ideal) x1) h18)
  refine (out_eq x0 (Read.val_main_v30 (F := Ideal) x0 x1 x2 x4 x5) x3 x6 x7).trans ?_
  rw [h30]

end Cert.ReferenceIdeal.RefValue

end
-- ==== Proof.Bridge.lean ====
/-
  The plain operations around the two kernels are the host program's own, operation for operation: the gather of the
  neighbour rows scaled by the edge weights, and the sum into destination nodes divided by max (count, 1). The two
  programs spell them over their own copies of the same shape and dimension records, so the tiled program's two
  stretches are the host program's stages as they stand.
-/
import proofs.«135043_j79972291052243_1_alg».proof.Proof.KernelValue
import proofs.«135043_j79972291052243_1_alg».proof.Proof.RefValue

noncomputable section

namespace Cert.Bridge

open Idealize.ShloMosaic Idealize.ShloMosaic.TcCoe

/-- The host program's scaled neighbour rows are the tiled program's first stretch. -/
theorem scaled_eq (x0 : (⟨Cert.ReferenceIdeal.S50000x128, .f32⟩ : BufTy).Contents (Elt Ideal)) (x1 : (⟨Cert.ReferenceIdeal.S2x800000, .i32⟩ : BufTy).Contents (Elt Ideal))
    (x2 : (⟨Cert.ReferenceIdeal.S800000, .f32⟩ : BufTy).Contents (Elt Ideal)) :
    Cert.ReferenceIdeal.Read.val_main_v13 (F := Ideal) x0 x1 x2 = Cert.KernelIdeal.ProgValue.scaledNeighbours (F := Ideal) x0 x1 x2 := by
  unfold Cert.ReferenceIdeal.Read.val_main_v13 Cert.ReferenceIdeal.Read.val_main_v10 Cert.ReferenceIdeal.Read.val_main_v12 Cert.ReferenceIdeal.Read.val_main_v11
    Cert.ReferenceIdeal.Read.val_main_v9 Cert.ReferenceIdeal.Read.val_main_v8 Cert.ReferenceIdeal.Read.val_main_v7 Cert.ReferenceIdeal.Read.val_main_v6
    Cert.ReferenceIdeal.Read.val_main_c_0 Cert.ReferenceIdeal.Read.val_main_v5 Cert.ReferenceIdeal.Read.val_main_v4 Cert.ReferenceIdeal.Read.val_main_c
    Cert.ReferenceIdeal.Read.val_main_v3 Cert.ReferenceIdeal.Read.val_main_v2
    Cert.KernelIdeal.ProgValue.scaledNeighbours Cert.KernelIdeal.ProgValue.srcOf
  rfl

/-- The host program's mean stage is the tiled program's second stretch. -/
theorem mean_eq (x1 : (⟨Cert.ReferenceIdeal.S2x800000, .i32⟩ : BufTy).Contents (Elt Ideal)) (h : (⟨Cert.ReferenceIdeal.S800000x256, .f32⟩ : BufTy).Contents (Elt Ideal)) :
    Cert.ReferenceIdeal.RefValue.meanOf x1 h = Cert.KernelIdeal.ProgValue.segmentMean (F := Ideal) x1 h := by
  unfold Cert.ReferenceIdeal.RefValue.meanOf Cert.ReferenceIdeal.Read.val_main_v29 Cert.ReferenceIdeal.Read.val_main_v28 Cert.ReferenceIdeal.Read.val_main_v27
    Cert.ReferenceIdeal.Read.val_main_v26 Cert.ReferenceIdeal.Read.val_main_cst_3 Cert.ReferenceIdeal.Read.val_main_v25 Cert.ReferenceIdeal.Read.val_main_v24
    Cert.ReferenceIdeal.Read.val_main_v23 Cert.ReferenceIdeal.Read.val_main_cst_2 Cert.ReferenceIdeal.Read.val_main_v22 Cert.ReferenceIdeal.Read.val_main_cst_1
    Cert.ReferenceIdeal.Read.val_main_v20 Cert.ReferenceIdeal.Read.val_main_v19 Cert.ReferenceIdeal.Read.val_main_cst Cert.ReferenceIdeal.Read.val_main_v1
    Cert.ReferenceIdeal.Read.val_main_v0
    Cert.KernelIdeal.ProgValue.segmentMean Cert.KernelIdeal.ProgValue.dstOf
  rfl

/-- The host program's result is the tiled program's term of the same eight arrays. -/
theorem result_eq (x0 : (⟨Cert.ReferenceIdeal.S50000x128, .f32⟩ : BufTy).Contents (Elt Ideal)) (x1 : (⟨Cert.ReferenceIdeal.S2x800000, .i32⟩ : BufTy).Contents (Elt Ideal))
    (x2 : (⟨Cert.ReferenceIdeal.S800000, .f32⟩ : BufTy).Contents (Elt Ideal)) (x3 : (⟨Cert.ReferenceIdeal.S128x64, .f32⟩ : BufTy).Contents (Elt Ideal))
    (x4 : (⟨Cert.ReferenceIdeal.S128x256, .f32⟩ : BufTy).Contents (Elt Ideal)) (x5 : (⟨Cert.ReferenceIdeal.S256, .f32⟩ : BufTy).Contents (Elt Ideal))
    (x6 : (⟨Cert.ReferenceIdeal.S256x64, .f32⟩ : BufTy).Contents (Elt Ideal)) (x7 : (⟨Cert.ReferenceIdeal.S128, .f32⟩ : BufTy).Contents (Elt Ideal)) :
    Cert.ReferenceIdeal.Read.val_main_v37 (F := Ideal) x0 x1 x2 x3 x4 x5 x6 x7
      = Cert.Spec.nodeOut x0 (Cert.KernelIdeal.ProgValue.segmentMean (F := Ideal) x1
          (Cert.Spec.edgeHidden (Cert.KernelIdeal.ProgValue.scaledNeighbours (F := Ideal) x0 x1 x2) x4 x5)) x3 x6 x7 := by
  rw [Cert.ReferenceIdeal.RefValue.result_eq, mean_eq, scaled_eq]

end Cert.Bridge

end
-- ==== Proof.lean ====
/-
  The certificate of the mean-pool GraphSAGE layer: a tiled program of two kernels (the per-edge hidden layer, then the
  per-node output layer) among plain operations, against the plain host program.

  Over the extended reals both programs compute, for every node n and output column u,
      max (y[n,u] + b[u], 0),   y[n,:] = [ x[n,:] · Wself | mean_h[n,:] · Wneigh ],
      mean_h[n,:] = (∑ over edges e into n of h[e,:]) / max (#edges into n, 1),
      h[e,:] = max ((w[e] · x[src e,:]) · W1 + b1, 0).
  The gather, the scaling, the sum into destination nodes and the division are the same operations in the two programs;
  the kernels' products are sums over the contraction index, as the host's are; rounding the products' operands to a
  shorter format is the identity on the extended reals. So the two results are one term of the eight argument arrays,
  and no property of the inputs (not even finiteness) is used.

  The three frames: each program terminates without a fault with its arguments unchanged (the tiled programs by their
  generated frame certificates, the host program by its generated run). The idealization rewrote no operation.
-/
import proofs.«135043_j79972291052243_1_alg».proof.Defs
import proofs.«135043_j79972291052243_1_alg».proof.Proof.Gen.Kernel
import proofs.«135043_j79972291052243_1_alg».proof.Proof.Gen.Kernel.Skeleton
import proofs.«135043_j79972291052243_1_alg».proof.Proof.Gen.Kernel.Launch
import proofs.«135043_j79972291052243_1_alg».proof.Proof.Gen.Kernel.Points
import proofs.«135043_j79972291052243_1_alg».proof.Proof.Gen.Kernel.Frame
import proofs.«135043_j79972291052243_1_alg».proof.Proof.Gen.KernelIdeal
import proofs.«135043_j79972291052243_1_alg».proof.Proof.Gen.KernelIdeal.Skeleton
import proofs.«135043_j79972291052243_1_alg».proof.Proof.Gen.KernelIdeal.Launch
import proofs.«135043_j79972291052243_1_alg».proof.Proof.Gen.KernelIdeal.Points
import proofs.«135043_j79972291052243_1_alg».proof.Proof.Gen.KernelIdeal.Frame
import proofs.«135043_j79972291052243_1_alg».proof.Proof.Gen.ReferenceIdeal
import proofs.«135043_j79972291052243_1_alg».proof.Proof.Gen.Pre_finite_inputs
import proofs.«135043_j79972291052243_1_alg».proof.Proof.Gen.ReferenceIdeal.Run
import proofs.«135043_j79972291052243_1_alg».proof.Proof.Gen.ReferenceIdeal.Read
import proofs.«135043_j79972291052243_1_alg».proof.Proof.KernelRun
import proofs.«135043_j79972291052243_1_alg».proof.Proof.KernelValue
import proofs.«135043_j79972291052243_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Run from memories agreeing on the arguments, the tiled program's result buffer ends at its term of the arguments
    (the frame run keeping the result buffer, read by `ProgValue.result_eq`) and the host program's at its run's term,
    which is the same term of the same arrays (`Bridge.result_eq`). -/
theorem algebraic : Cert.algebraic_KernelIdeal_ReferenceIdeal := by
  intro m ρ m' ρ' _ hagree
  refine ⟨fun c => Cert.KernelIdeal.Gen.W4 m ρ c (Proc.devRef .tc Cert.KernelIdeal.main_v27),
    Cert.KernelIdeal.GenRun.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.Bridge.result_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.KernelIdeal.ProgValue.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
